-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x768 : Shape := ⟨2, ![2048, 768]⟩
abbrev S100x768 : Shape := ⟨2, ![100, 768]⟩
abbrev S768x768 : Shape := ⟨2, ![768, 768]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x768 : S_.BroadcastsInDim S2048x768 (![] : Fin 0 → Fin S2048x768.rank)
  reducesTo_S2048x768_S_d0_1 : S2048x768.ReducesTo [0, 1] S_
  bcast_S_S100x768 : S_.BroadcastsInDim S100x768 (![] : Fin 0 → Fin S100x768.rank)
  reducesTo_S100x768_S_d0_1 : S100x768.ReducesTo [0, 1] S_
  bcast_S_S768x768 : S_.BroadcastsInDim S768x768 (![] : Fin 0 → Fin S768x768.rank)
  reducesTo_S768x768_S_d0_1 : S768x768.ReducesTo [0, 1] S_

variable [Facts]

def fn_part1 {F : FTy → Type} [FloatOps F] (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  main_v18

def fn {F : FTy → Type} [FloatOps F] (main_arg0 : FVec F S8192x2048 .f32) (main_arg1 : FVec F S2048x768 .f32) (main_arg2 : FVec F S100x768 .f32) (main_arg3 : FVec F S768x768 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x768 .f32 := Host.absf main_arg1
  let main_cst_0 : FVec F S_ .f32 := constant S_ .f32 0x7F800000#32
  let main_v5 : FVec F S2048x768 .f32 := broadcastInDim S2048x768 ![] bcast_S_S2048x768 main_cst_0
  let main_v6 : IVec S2048x768 1 := cmpf .olt main_v4 main_v5
  let main_c_1 : IVec S_ 1 := constantI S_ 1 1#1
  let main_v7 : IVec S_ 1 := (fun x v => Host.reduce IntOp.andi x v reducesTo_S2048x768_S_d0_1 h_S_) main_v6 main_c_1
  let main_v8 : IVec S_ 1 := andi main_v3 main_v7
  let main_v9 : FVec F S100x768 .f32 := Host.absf main_arg2
  let main_cst_2 : FVec F S_ .f32 := constant S_ .f32 0x7F800000#32
  let main_v10 : FVec F S100x768 .f32 := broadcastInDim S100x768 ![] bcast_S_S100x768 main_cst_2
  let main_v11 : IVec S100x768 1 := cmpf .olt main_v9 main_v10
  let main_c_3 : IVec S_ 1 := constantI S_ 1 1#1
  let main_v12 : IVec S_ 1 := (fun x v => Host.reduce IntOp.andi x v reducesTo_S100x768_S_d0_1 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_v13 main_v16
-- ==== Kernel.lean ====
abbrev S8192x2048 : Shape := ⟨2, ![8192, 2048]⟩
abbrev S2048x768 : Shape := ⟨2, ![2048, 768]⟩
abbrev S100x768 : Shape := ⟨2, ![100, 768]⟩
abbrev S768x768 : Shape := ⟨2, ![768, 768]⟩
abbrev S8192x1 : Shape := ⟨2, ![8192, 1]⟩
abbrev S512x2048 : Shape := ⟨2, ![512, 2048]⟩
abbrev S512x1 : Shape := ⟨2, ![512, 1]⟩
abbrev S512x768 : Shape := ⟨2, ![512, 768]⟩
abbrev S512 : Shape := ⟨1, ![512]⟩
abbrev S100 : Shape := ⟨1, ![100]⟩
abbrev S100x1 : Shape := ⟨2, ![100, 1]⟩
abbrev S1x100 : Shape := ⟨2, ![1, 100]⟩
abbrev S512x100 : Shape := ⟨2, ![512, 100]⟩
abbrev S8192 : Shape := ⟨1, ![8192]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x768, .f32⟩
  | .hbm, ⟨2, _⟩ => ⟨S100x768, .f32⟩
  | .hbm, ⟨3, _⟩ => ⟨S768x768, .f32⟩
  | .hbm, ⟨4, _⟩ => ⟨S8192x1, .f32⟩
  | .hbm, ⟨5, _⟩ => ⟨S8192, .f32⟩
  | .local _ .vmem, ⟨0, _⟩ => ⟨S512x2048, .f32⟩
  | .local _ .vmem, ⟨1, _⟩ => ⟨S512x2048, .f32⟩
  | .local _ .vmem, ⟨2, _⟩ => ⟨S2048x768, .f32⟩
  | .local _ .vmem, ⟨3, _⟩ => ⟨S100x768, .f32⟩
  | .local _ .vmem, ⟨4, _⟩ => ⟨S768x768, .f32⟩
  | .local _ .vmem, ⟨5, _⟩ => ⟨S512x1, .f32⟩
  | .local _ .vmem, ⟨6, _⟩ => ⟨S512x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S100x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S2048x768_S2048x768_0_0 : ∀ a, (![0, 0] : Fin 2 → Nat) a + S2048x768.size a ≤ S2048x768.size a
  h_S2048x768 : 0 < S2048x768.numel
  inb_S768x768_S768x768_0_0 : ∀ a, (![0, 0] : Fin 2 → Nat) a + S768x768.size a ≤ S768x768.size a
  h_S768x768 : 0 < S768x768.numel
  inb_S100x768_S100x768_0_0 : ∀ a, (![0, 0] : Fin 2 → Nat) a + S100x768.size a ≤ S100x768.size a
  h_S100x768 : 0 < S100x768.numel
  reduces_S512x768_S512 : S512x768.Reduces [1] S512
  shapeCasts_S512_S512x1 : S512.ShapeCasts S512x1
  reduces_S100x768_S100 : S100x768.Reduces [1] S100
  shapeCasts_S100_S100x1 : S100.ShapeCasts S100x1
  transposes_S100x1_p1_0_S1x100 : S100x1.Transposes [1, 0] S1x100
  broadcasts_S512x1_S512x100 : S512x1.Broadcasts S512x100
  broadcasts_S1x100_S512x100 : S1x100.Broadcasts S512x100
  reduces_S512x100_S512 : S512x100.Reduces [1] S512
  inb_S512x1_S512x1_0_0 : ∀ a, (![0, 0] : Fin 2 → Nat) a + S512x1.size a ≤ S512x1.size a
  h_S512x1 : 0 < S512x1.numel
  shapeCasts_S8192x1_S8192 : S8192x1.ShapeCasts S8192
  dot_S512x2048_S2048x768_S512x768_1_0_0_1_n_n_wf : DotDims.WF S512x2048 S2048x768 S512x768 [1] [0] [0] [1] [] []
  dot_S512x768_S768x768_S512x768_1_0_0_1_n_n_wf : DotDims.WF S512x768 S768x768 S512x768 [1] [0] [0] [1] [] []
  dot_S100x768_S768x768_S100x768_1_0_0_1_n_n_wf : DotDims.WF S100x768 S768x768 S100x768 [1] [0] [0] [1] [] []
  dot_S512x768_S100x768_S512x100_1_1_0_0_n_n_wf : DotDims.WF S512x768 S100x768 S512x100 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x768.size a ≤ S2048x768.size a
  hwx0_1 : ∀ i : grid0.Coords, EltTy.bits .f32 = 32 ∨ (Rect.block (s := S2048x768) S2048x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x768.size a ≤ S100x768.size a
  hwx0_2 : ∀ i : grid0.Coords, EltTy.bits .f32 = 32 ∨ (Rect.block (s := S100x768) S100x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .f32 = 32 ∨ (Rect.block (s := S768x768) S768x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)

variable [Facts₀]

def dot_S512x2048_S2048x768_S512x768_1_0_0_1_n_n : DotDims S512x2048 S2048x768 S512x768 where
  lhsContracting := [1]
  rhsContracting := [0]
  lhsNonContracting := [0]
  rhsNonContracting := [1]
  lhsBatch := []
  rhsBatch := []
  wf := dot_S512x2048_S2048x768_S512x768_1_0_0_1_n_n_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S100x768_S768x768_S100x768_1_0_0_1_n_n : DotDims S100x768 S768x768 S100x768 where
  lhsContracting := [1]
  rhsContracting := [0]
  lhsNonContracting := [0]
  rhsNonContracting := [1]
  lhsBatch := []
  rhsBatch := []
  wf := dot_S100x768_S768x768_S100x768_1_0_0_1_n_n_wf
def dot_S512x768_S100x768_S512x100_1_1_0_0_n_n : DotDims S512x768 S100x768 S512x100 where
  lhsContracting := [1]
  rhsContracting := [1]
  lhsNonContracting := [0]
  rhsNonContracting := [0]
  lhsBatch := []
  rhsBatch := []
  wf := dot_S512x768_S100x768_S512x100_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S100x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x768 : Shape := ⟨2, ![2048, 768]⟩
abbrev S100x768 : Shape := ⟨2, ![100, 768]⟩
abbrev S768x768 : Shape := ⟨2, ![768, 768]⟩
abbrev S8192x768 : Shape := ⟨2, ![8192, 768]⟩
abbrev S_ : Shape := ⟨0, ![]⟩
abbrev S8192 : Shape := ⟨1, ![8192]⟩
abbrev S768x100 : Shape := ⟨2, ![768, 100]⟩
abbrev S8192x100 : Shape := ⟨2, ![8192, 100]⟩
abbrev S100 : Shape := ⟨1, ![100]⟩
abbrev S8192x1 : Shape := ⟨2, ![8192, 1]⟩
abbrev S1x100 : Shape := ⟨2, ![1, 100]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x768, .f32⟩
  | .hbm, ⟨2, _⟩ => ⟨S100x768, .f32⟩
  | .hbm, ⟨3, _⟩ => ⟨S768x768, .f32⟩
  | .hbm, ⟨4, _⟩ => ⟨S8192x768, .f32⟩
  | .hbm, ⟨5, _⟩ => ⟨S8192x768, .f32⟩
  | .hbm, ⟨6, _⟩ => ⟨S100x768, .f32⟩
  | .hbm, ⟨7, _⟩ => ⟨S8192x768, .f32⟩
  | .hbm, ⟨8, _⟩ => ⟨S_, .f32⟩
  | .hbm, ⟨9, _⟩ => ⟨S8192, .f32⟩
  | .hbm, ⟨10, _⟩ => ⟨S768x100, .f32⟩
  | .hbm, ⟨11, _⟩ => ⟨S8192x100, .f32⟩
  | .hbm, ⟨12, _⟩ => ⟨S768x100, .f32⟩
  | .hbm, ⟨13, _⟩ => ⟨S8192x100, .f32⟩
  | .hbm, ⟨14, _⟩ => ⟨S100x768, .f32⟩
  | .hbm, ⟨15, _⟩ => ⟨S_, .f32⟩
  | .hbm, ⟨16, _⟩ => ⟨S100, .f32⟩
  | .hbm, ⟨17, _⟩ => ⟨S8192x1, .f32⟩
  | .hbm, ⟨18, _⟩ => ⟨S8192x100, .f32⟩
  | .hbm, ⟨19, _⟩ => ⟨S8192x100, .f32⟩
  | .hbm, ⟨20, _⟩ => ⟨S8192x100, .f32⟩
  | .hbm, ⟨21, _⟩ => ⟨S1x100, .f32⟩
  | .hbm, ⟨22, _⟩ => ⟨S8192x100, .f32⟩
  | .hbm, ⟨23, _⟩ => ⟨S8192x100, .f32⟩
  | .hbm, ⟨24, _⟩ => ⟨S_, .f32⟩
  | .hbm, ⟨25, _⟩ => ⟨S8192x100, .f32⟩
  | .hbm, ⟨26, _⟩ => ⟨S8192x100, .f32⟩
  | .hbm, ⟨27, _⟩ => ⟨S_, .f32⟩
  | .hbm, ⟨28, _⟩ => ⟨S8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  reducesTo_S8192x768_S8192_d1 : S8192x768.ReducesTo [1] S8192
  h_S_ : 0 < S_.numel
  transposes_S100x768_S768x100_1_0 : S100x768.Transposes [1, 0] S768x100
  reducesTo_S100x768_S100_d1 : S100x768.ReducesTo [1] S100
  bcast_S8192_S8192x1_0 : S8192.BroadcastsInDim S8192x1 (![0] : Fin 1 → Fin S8192x1.rank)
  bcast_S8192x1_S8192x100_0_1 : S8192x1.BroadcastsInDim S8192x100 (![0, 1] : Fin 2 → Fin S8192x100.rank)
  bcast_S100_S1x100_1 : S100.BroadcastsInDim S1x100 (![1] : Fin 1 → Fin S1x100.rank)
  bcast_S1x100_S8192x100_0_1 : S1x100.BroadcastsInDim S8192x100 (![0, 1] : Fin 2 → Fin S8192x100.rank)
  bcast_S_S8192x100 : S_.BroadcastsInDim S8192x100 (![] : Fin 0 → Fin S8192x100.rank)
  reducesTo_S8192x100_S8192_d1 : S8192x100.ReducesTo [1] S8192
  dot_S8192x2048_S2048x768_S8192x768_1_0_0_1_n_n_wf : DotDims.WF S8192x2048 S2048x768 S8192x768 [1] [0] [0] [1] [] []
  dot_S8192x768_S768x768_S8192x768_1_0_0_1_n_n_wf : DotDims.WF S8192x768 S768x768 S8192x768 [1] [0] [0] [1] [] []
  dot_S100x768_S768x768_S100x768_1_0_0_1_n_n_wf : DotDims.WF S100x768 S768x768 S100x768 [1] [0] [0] [1] [] []
  dot_S8192x768_S768x100_S8192x100_1_0_0_1_n_n_wf : DotDims.WF S8192x768 S768x100 S8192x100 [1] [0] [0] [1] [] []

variable [Facts₀]

def dot_S8192x2048_S2048x768_S8192x768_1_0_0_1_n_n : DotDims S8192x2048 S2048x768 S8192x768 where
  lhsContracting := [1]
  rhsContracting := [0]
  lhsNonContracting := [0]
  rhsNonContracting := [1]
  lhsBatch := []
  rhsBatch := []
  wf := dot_S8192x2048_S2048x768_S8192x768_1_0_0_1_n_n_wf
def dot_S8192x768_S768x768_S8192x768_1_0_0_1_n_n : DotDims S8192x768 S768x768 S8192x768 where
  lhsContracting := [1]
  rhsContracting := [0]
  lhsNonContracting := [0]
  rhsNonContracting := [1]
  lhsBatch := []
  rhsBatch := []
  wf := dot_S8192x768_S768x768_S8192x768_1_0_0_1_n_n_wf
def dot_S100x768_S768x768_S100x768_1_0_0_1_n_n : DotDims S100x768 S768x768 S100x768 where
  lhsContracting := [1]
  rhsContracting := [0]
  lhsNonContracting := [0]
  rhsNonContracting := [1]
  lhsBatch := []
  rhsBatch := []
  wf := dot_S100x768_S768x768_S100x768_1_0_0_1_n_n_wf
def dot_S8192x768_S768x100_S8192x100_1_0_0_1_n_n : DotDims S8192x768 S768x100 S8192x100 where
  lhsContracting := [1]
  rhsContracting := [0]
  lhsNonContracting := [0]
  rhsNonContracting := [1]
  lhsBatch := []
  rhsBatch := []
  wf := dot_S8192x768_S768x100_S8192x100_1_0_0_1_n_n_wf

class Facts : Prop extends Facts₀ where

variable [Facts]
-- ==== Proof.Spec.lean ====
/-
  The Mahalanobis class score, as one function of the four argument arrays (extended reals).

  For an input row `xr` (2048 numbers), a projection `W` (2048 × 768), class means `mu` (100 × 768) and a precision
  matrix `P` (768 × 768):
    z      = xr · W                                   (768 features),
    z P    = the feature row times P,      mu_c P = class c's mean times P,
    score c = -1/2 · ( (zP)·z - (zP)·mu_c - z·(mu_c P) + (mu_c P)·mu_c ),
  the expanded form of -1/2 · (z - mu_c) P (z - mu_c)ᵀ, with the four inner products kept apart and combined in this
  order; and the result for the row is the largest score over the 100 classes, the maximum taken from -∞.
  Nothing here depends on how the rows are grouped into tiles: the result at row `r` reads row `r` of `x` only.
-/
import Idealize.ShloMosaic.PureOps.Ideal.Laws
import Idealize.ShloMosaic.Lib.ValueIdx

noncomputable section

namespace Cert.Mahalanobis

open Idealize.ShloMosaic Idealize.ShloMosaic.ValueIdx

/-- An `a × b` matrix of extended reals, indexed as the printed programs index a rank-2 array. -/
abbrev Mat (a b : ℕ) : Type := (⟨2, ![a, b]⟩ : Shape).Idx → EReal

/-- Row `r` of a matrix. -/
abbrev row {a b : ℕ} (x : Mat a b) (r : Fin a) : Fin b → EReal := fun k => x (ix2 r k)

/-- The features of one input row: `z d = ∑ k, xr k · W (k, d)`. -/
def feat (W : Mat 2048 768) (xr : Fin 2048 → EReal) (d : Fin 768) : EReal :=
  ∑ k : Fin 2048, xr k * W (ix2 k d)

/-- A feature row times the precision matrix: `(a P) d = ∑ k, a k · P (k, d)`. -/
def timesP (P : Mat 768 768) (a : Fin 768 → EReal) (d : Fin 768) : EReal :=
  ∑ k : Fin 768, a k * P (ix2 k d)

/-- The score of class `c` for the input row `xr`: minus one half (the f32 word `0xBF000000`) times
    `(zP)·z - (zP)·mu_c - z·(mu_c P) + (mu_c P)·mu_c`, the four inner products over the 768 features. -/
def score (W : Mat 2048 768) (mu : Mat 100 768) (P : Mat 768 768) (xr : Fin 2048 → EReal) (c : Fin 100) : EReal :=
  Ideal.ofBits .f32 0xBF000000#32 *
    ((∑ d : Fin 768, timesP P (feat W xr) d * feat W xr d)
      - (∑ d : Fin 768, timesP P (feat W xr) d * mu (ix2 c d))
      - (∑ d : Fin 768, feat W xr d * timesP P (row mu c) d)
      + (∑ d : Fin 768, timesP P (row mu c) d * mu (ix2 c d)))

/-- The best class score of a row: the maximum over the 100 classes, from -∞ (the f32 word `0xFF800000`). -/
def best (W : Mat 2048 768) (mu : Mat 100 768) (P : Mat 768 768) (xr : Fin 2048 → EReal) : EReal :=
  (Finset.univ : Finset (Fin 100)).fold max (Ideal.ofBits .f32 0xFF800000#32) (score W mu P xr)

/-- The whole result: entry `r` is the best score of row `r` of `x`. -/
def result (x : Mat 8192 2048) (W : Mat 2048 768) (mu : Mat 100 768) (P : Mat 768 768) :
    (⟨1, ![8192]⟩ : Shape).Idx → EReal :=
  fun i => best W mu P (row x (i 0))

/-- The same values laid as a column, as the tiled program writes them before its final reshape. -/
def resultCol (x : Mat 8192 2048) (W : Mat 2048 768) (mu : Mat 100 768) (P : Mat 768 768) :
    (⟨2, ![8192, 1]⟩ : Shape).Idx → EReal :=
  fun i => best W mu P (row x (i 0))

end Cert.Mahalanobis

end
-- ==== Proof.LibKeepdims.lean ====
/-
  Keepdims column forms and row-sum normalisation, read at an index (extended reals, the ideal instance).

  A row sum kept as a column — `[a] → [a, 1]` by a shape cast (a kernel) or by a `broadcast_in_dim` along axis 0 (the
  host) — and that column laid back over the columns of an `[a, b]` matrix — by a vector broadcast (a kernel) or a
  `broadcast_in_dim` along axes 0 and 1 (the host) — read, at `(i, j)`, the vector's entry `i`. With them, "divide every
  entry of a matrix by the sum of its row" is read at `(r, k)` as `x (r, k) / ∑ k', x (r, k')` in both spellings, and a plain
  `m × k` by `k × n` product accumulated into a zero splat (a kernel) or with no accumulator (the host) as
  `∑ c, A (a, c) * B (c, b)`.
-/
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StackMember

noncomputable section

namespace Cert.LibKeepdims

open Idealize.ShloMosaic Idealize.ShloMosaic.ValueIdx

variable {α : Type}

/-- Over a rank-2 shape reduced along axis 1, the source index above row `r` with coordinate `k` on the dropped axis is `(r, k)`. -/
theorem lift_ix1 {a b : ℕ} (h : (⟨2, ![a, b]⟩ : Shape).Reduces [(1 : Fin 2)] ⟨1, ![a]⟩) (r : Fin a) (k : Fin b) :
    h.lift (ix1 r) k = ix2 r k :=
  funext fun c => Fin.ext (match c with | ⟨0, _⟩ => rfl | ⟨1, _⟩ => rfl)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over the columns of `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `broadcast_in_dim` of an `[a]` vector along axis 0 of `[a, 1]` reads, at `(i, u)`, the vector at `i`. -/
theorem broadcastInDim_a_a1_apply {a : ℕ} (dims : Fin 1 → Fin 2) (hd : dims 0 = 0)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- The host's `broadcast_in_dim` of a column `[a, 1]` along axes 0 and 1 of `[a, b]` reads, at `(p, c)`, the column at row `p`. -/
theorem broadcastInDim_a1_ab_apply {a b : ℕ} (dims : Fin 2 → Fin 2) (hd0 : dims 0 = 0) (hd1 : dims 1 = 1)
    (h : (⟨2, ![a, 1]⟩ : Shape).BroadcastsInDim ⟨2, ![a, b]⟩ dims) (v : (⟨2, ![a, 1]⟩ : Shape).Idx → α)
    (p : Fin a) (c : Fin b) : broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else ((ix2 p c : (⟨2, ![a, b]⟩ : Shape).Idx) (dims 0)).val
    rw [hd0]
    split
    · have := p.isLt; omega
    · rfl
  | ⟨1, _⟩ => rfl

/-! ## Every entry divided by the sum of its row -/

/-- A kernel's spelling: the lane sum over axis 1 (accumulator the neutral zero), cast to a column, broadcast back over the
    columns, and the quotient — at `(r, k)` it is `y (r, k) / ∑ k', y (r, k')`. -/
theorem divRowSum_kernel_apply {a b : ℕ} (y : FVec Ideal ⟨2, ![a, b]⟩ .f32)
    (h : (⟨2, ![a, b]⟩ : Shape).Reduces [(1 : Fin 2)] ⟨1, ![a]⟩) (hφ : FKind.Formats .f32)
    (hacc : (0x00000000#32 : BitVec (FTy.bits .f32)) = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    divf y (broadcastTo ⟨2, ![a, b]⟩ (shapeCast ⟨2, ![a, 1]⟩ (multiReduction .add [(1 : Fin 2)] ⟨1, ![a]⟩ y 0x00000000#32 h hφ hacc) hc) hb) (ix2 r k)
      = Ideal.div (y (ix2 r k)) (∑ k' : Fin b, y (ix2 r k')) := by
  refine congrArg (Ideal.div (y (ix2 r k))) ?_
  refine (broadcastTo_a1_ab_apply _ hb r k).trans ?_
  refine (shapeCast_a_a1_apply _ hc r 0).trans ?_
  refine (Ideal.multiReduction_add_single y _ h hφ hacc (ix1 r)).trans ?_
  exact Finset.sum_congr rfl fun k' _ => congrArg y (lift_ix1 h r k')

/-- The host's spelling: `stablehlo.reduce` with add over axis 1 from an initial zero, `broadcast_in_dim` to a column and then
    over the matrix, and `stablehlo.divide` — the same quotient at `(r, k)`. -/
theorem divRowSum_host_apply {a b : ℕ} {u : Shape} (y : FVec Ideal ⟨2, ![a, b]⟩ .f32)
    (h' : (⟨2, ![a, b]⟩ : Shape).ReducesTo [(1 : Fin 2)] ⟨1, ![a]⟩) (h : (⟨2, ![a, b]⟩ : Shape).Reduces [(1 : Fin 2)] ⟨1, ![a]⟩)
    (hu : 0 < u.numel)
    (d1 : Fin 1 → Fin 2) (hd1 : d1 0 = 0) (hb1 : (⟨1, ![a]⟩ : Shape).BroadcastsInDim ⟨2, ![a, 1]⟩ d1)
    (d2 : Fin 2 → Fin 2) (hd20 : d2 0 = 0) (hd21 : d2 1 = 1) (hb2 : (⟨2, ![a, 1]⟩ : Shape).BroadcastsInDim ⟨2, ![a, b]⟩ d2)
    (r : Fin a) (k : Fin b) :
    Host.divf y (broadcastInDim ⟨2, ![a, b]⟩ d2 hb2 (broadcastInDim ⟨2, ![a, 1]⟩ d1 hb1
        (Host.reduceAdd y (constant (F := Ideal) u .f32 0x00000000#32) h' hu))) (ix2 r k)
      = Ideal.div (y (ix2 r k)) (∑ k' : Fin b, y (ix2 r k')) := by
  refine congrArg (Ideal.div (y (ix2 r k))) ?_
  refine (broadcastInDim_a1_ab_apply d2 hd20 hd21 hb2 _ r k).trans ?_
  refine (broadcastInDim_a_a1_apply d1 hd1 hb1 _ r 0).trans ?_
  show Ideal.hostReduceAdd h' y (Ideal.ofBits .f32 0x00000000#32) (ix1 r) = _
  rw [Ideal.hostReduceAdd_single h' h, Ideal.ofBits_zero_f32, zero_add]
  exact Finset.sum_congr rfl fun k' _ => congrArg y (lift_ix1 h r k')

/-! ## A plain matrix product at an index -/

/-- The host's `dot_general` with the plain dimension numbers (contract axis 1 of the left with axis 0 of the right), read at `(p, q)`. -/
theorem dotGeneral_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (p : Fin m) (q : Fin n) :
    Host.dotGeneral d prec A B (ix2 p q) = ∑ c : Fin k, A (ix2 p c) * B (ix2 c q) := by
  subst hd
  exact StackMember.dotGeneral_plain_apply prec A B p q

/-- A kernel's `tpu.matmul` with the plain dimension numbers into a zero splat, read at `(p, q)`: the same sum. -/
theorem matmul_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (p : Fin m) (q : Fin n) :
    matmul d prec A B (constant ⟨2, ![m, n]⟩ .f32 0x00000000#32) (ix2 p q) = ∑ c : Fin k, A (ix2 p c) * B (ix2 c q) := by
  rw [matmul_zero_eq_dotGeneral]
  exact dotGeneral_plain_apply d hd prec A B p q

end Cert.LibKeepdims

end
-- ==== Proof.LibTransposedDot.lean ====
/-
  A matrix product contracted on the LAST axis of both operands, `A · Bᵀ`, read at an index, and the row forms of a
  column (extended reals, the ideal instance).

  With the dimension numbers "contract axis 1 of the left with axis 1 of the right" an `m × k` by `n × k` product reads,
  at `(p, q)`, `∑ c, A (p, c) * B (q, c)` — the host's `dot_general` and a kernel's product accumulated into a zero splat
  alike. A column `[a, 1]` transposed to the row `[1, a]` reads, at `(u, i)`, the column's entry `i`; that row laid over
  the rows of a `[b, a]` matrix reads, at `(p, c)`, the row's entry `c`; and a column `[a, 1]` reshaped to the vector `[a]`
  reads, at `i`, the column's entry `i`.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.LibTransposedDot

open Idealize.ShloMosaic Idealize.ShloMosaic.ValueIdx

variable {α : Type}

/-! ## `A · Bᵀ` at an index -/

/-- The host's `dot_general` contracting axis 1 of both operands, read at `(p, q)`. -/
theorem dotGeneral_transposedRhs_apply {m k n : ℕ} {φ₁ φ₂ : FTy} (prec : Option ContractPrecision)
    (A : FVec Ideal ⟨2, ![m, k]⟩ φ₁) (B : FVec Ideal ⟨2, ![n, k]⟩ φ₂) (p : Fin m) (q : Fin n) :
    Host.dotGeneral (DotDims.transposedRhs m k n) prec A B (ix2 p q) = ∑ c : Fin k, A (ix2 p c) * B (ix2 q c) := by
  show FloatOps.dotGeneral _ prec _ A B (ix2 p q) = _
  rw [Ideal.dotGeneral_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 p q) ((contrEquiv1 _ k rfl rfl).symm c) = ix2 p c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 p q) ((contrEquiv1 _ k rfl rfl).symm c) = ix2 q c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- A kernel's product with the same dimension numbers into a zero splat, read at `(p, q)`: the same sum. -/
theorem matmul_transposedRhs_apply {m k n : ℕ} {φ₁ φ₂ : FTy} (d : DotDims ⟨2, ![m, k]⟩ ⟨2, ![n, k]⟩ ⟨2, ![m, n]⟩)
    (hd : d = DotDims.transposedRhs m k n) (prec : Option ContractPrecision)
    (A : FVec Ideal ⟨2, ![m, k]⟩ φ₁) (B : FVec Ideal ⟨2, ![n, k]⟩ φ₂) (p : Fin m) (q : Fin n) :
    matmul d prec A B (constant ⟨2, ![m, n]⟩ .f32 0x00000000#32) (ix2 p q) = ∑ c : Fin k, A (ix2 p c) * B (ix2 q c) := by
  subst hd
  rw [matmul_zero_eq_dotGeneral]
  exact dotGeneral_transposedRhs_apply prec A B p q

/-! ## A column as a row, and the row over every row of a matrix -/

/-- A column `[a, 1]` transposed to the row `[1, a]` reads, at `(u, i)`, the column at `(i, 0)`. -/
theorem transpose_a1_1a_apply {a : ℕ} (v : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] v h (ix2 u i) = v (ix2 i (0 : Fin 1)) := by
  refine transpose_apply [1, 0] v h (ix2 u i) (ix2 i (0 : Fin 1)) fun b => ?_
  match b with
  | ⟨0, _⟩ =>
    show (0 : ℕ) = u.val
    omega
  | ⟨1, _⟩ => rfl

/-- A row `[1, a]` broadcast over the rows of `[b, a]` reads, at `(p, c)`, the row at `(0, c)`. -/
theorem broadcastTo_1a_ba_apply {a b : ℕ} (v : (⟨2, ![1, a]⟩ : Shape).Idx → α)
    (h : (⟨2, ![1, a]⟩ : Shape).Broadcasts ⟨2, ![b, a]⟩) (p : Fin b) (c : Fin a) :
    broadcastTo ⟨2, ![b, a]⟩ v h (ix2 p c) = v (ix2 (0 : Fin 1) c) := by
  refine broadcastTo_apply v h (ix2 p c) (ix2 (0 : Fin 1) c) fun ax => ?_
  match ax with
  | ⟨0, _⟩ => rfl
  | ⟨1, _⟩ =>
    show c.val = if a = 1 then 0 else c.val
    split
    · have := c.isLt; omega
    · rfl

/-- A column `[a, 1]` reshaped to the vector `[a]` reads, at `i`, the column at `(i, 0)`. -/
theorem shapeCast_a1_a_apply {a : ℕ} (v : (⟨2, ![a, 1]⟩ : Shape).Idx → α) (h : (⟨2, ![a, 1]⟩ : Shape).ShapeCasts ⟨1, ![a]⟩)
    (i : Fin a) : shapeCast ⟨1, ![a]⟩ v h (ix1 i) = v (ix2 i (0 : Fin 1)) :=
  shapeCast_apply v h _ _ (by
    rw [Shape.rowMajor_val_two, Shape.rowMajor_val_one]
    show i.val * 1 + 0 = i.val
    omega)

end Cert.LibTransposedDot

end
-- ==== Proof.TileBody.lean ====
/-
  What one tile of the kernel computes, read at an index (the ideal instance).

  A grid point stages a block `xb` of 512 rows of `x` and the whole of `W`, `mu` and `P`. Its body forms, for the block,
  the features `z = xb · W`, then `z · P` and `mu · P`, the two row sums `(zP)·z` (a column) and `(mu P)·mu` (a column turned
  into a row), the two cross products `(zP) · muᵀ` and `z · (mu P)ᵀ`, the scores, and the row maximum, which it stores as a
  512 × 1 column. The narrowing of the operands to bf16 before each product is the identity on extended reals, a
  product into a zero accumulator is the plain sum over the contracted index, and a lane sum is the sum over the lane
  axis; so entry `(p, 0)` of the stored column is `best W mu P` of row `p` of the block — the specification's value,
  which looks at that one row of `x` only.

  The stages below are the body's own terms, cut at the values it reuses; `pay_eq` says the body's stored value is the
  last stage.
-/
import proofs.«160211_j73744588473029_1_alg».proof.Proof.Gen.KernelIdeal.Skeleton
import proofs.«160211_j73744588473029_1_alg».proof.Proof.Spec
import proofs.«160211_j73744588473029_1_alg».proof.Proof.LibKeepdims
import proofs.«160211_j73744588473029_1_alg».proof.Proof.LibTransposedDot

noncomputable section

namespace Cert.Mahalanobis.Tile

open Idealize.ShloMosaic Idealize.ShloMosaic.ValueIdx Cert.KernelIdeal Cert.KernelIdeal.Gen
open Cert.LibKeepdims Cert.LibTransposedDot

variable (xb : FVec Ideal S512x2048 .f32) (W : FVec Ideal S2048x768 .f32) (P : FVec Ideal S768x768 .f32)
  (mu mu' : FVec Ideal S100x768 .f32)

/-! ## The stages -/

/-- The block's features, `xb · W`. -/
def z : FVec Ideal S512x768 .f32 :=
  matmul dot_S512x2048_S2048x768_S512x768_1_0_0_1_n_n none (truncf .bf16 xb bitsLt_bf16_f32) (truncf .bf16 W bitsLt_bf16_f32)
    (constant S512x768 .f32 0x00000000#32)

/-- The features times the precision matrix. -/
def zP : FVec Ideal S512x768 .f32 :=
  matmul dot_S512x768_S768x768_S512x768_1_0_0_1_n_n none (truncf .bf16 (z xb W) bitsLt_bf16_f32) (truncf .bf16 P bitsLt_bf16_f32)
    (constant S512x768 .f32 0x00000000#32)

/-- The class means times the precision matrix. -/
def muP : FVec Ideal S100x768 .f32 :=
  matmul dot_S100x768_S768x768_S100x768_1_0_0_1_n_n none (truncf .bf16 mu bitsLt_bf16_f32) (truncf .bf16 P bitsLt_bf16_f32)
    (constant S100x768 .f32 0x00000000#32)

/-- `(zP)·z` per row, kept as a column. -/
def zPz : FVec Ideal S512x1 .f32 :=
  shapeCast S512x1 (multiReduction .add [1] S512 (mulf (zP xb W P) (z xb W)) 0x00000000#32 reduces_S512x768_S512 (.inl rfl) rfl)
    shapeCasts_S512_S512x1

/-- `(mu P)·mu` per class, as a row (the second factor is the body's second load of the means). -/
def mPm : FVec Ideal S1x100 .f32 :=
  transpose S1x100 [1, 0]
    (shapeCast S100x1 (multiReduction .add [1] S100 (mulf (muP P mu) mu') 0x00000000#32 reduces_S100x768_S100 (.inl rfl) rfl)
      shapeCasts_S100_S100x1)
    transposes_S100x1_p1_0_S1x100

/-- `(zP) · muᵀ`. -/
def zPm : FVec Ideal S512x100 .f32 :=
  matmul dot_S512x768_S100x768_S512x100_1_1_0_0_n_n none (truncf .bf16 (zP xb W P) bitsLt_bf16_f32) (truncf .bf16 mu bitsLt_bf16_f32)
    (constant S512x100 .f32 0x00000000#32)

/-- `z · (mu P)ᵀ`. -/
def mPz : FVec Ideal S512x100 .f32 :=
  matmul dot_S512x768_S100x768_S512x100_1_1_0_0_n_n none (truncf .bf16 (z xb W) bitsLt_bf16_f32)
    (truncf .bf16 (muP P mu) bitsLt_bf16_f32) (constant S512x100 .f32 0x00000000#32)

/-- The block's scores, 512 rows by 100 classes. -/
def scores : FVec Ideal S512x100 .f32 :=
  mulf (broadcast S512x100 (Scalar.ofBits .f32 0xBF000000#32))
    (addf (subf (subf (broadcastTo S512x100 (zPz xb W P) broadcasts_S512x1_S512x100) (zPm xb W P mu)) (mPz xb W P mu))
      (broadcastTo S512x100 (mPm P mu mu') broadcasts_S1x100_S512x100))

/-- The row maxima, as the column the body stores. -/
def stored : FVec Ideal S512x1 .f32 :=
  shapeCast S512x1 (multiReduction .maximumf [1] S512 (scores xb W P mu mu') 0xFF800000#32 reduces_S512x100_S512 (.inl rfl) rfl)
    shapeCasts_S512_S512x1

/-- The body's stored value is the last stage. -/
theorem pay_eq : k0_pay1 (F := Ideal) xb W P mu mu' = stored xb W P mu mu' := rfl

/-! ## Each stage at an index -/

theorem z_apply (p : Fin 512) (d : Fin 768) : z xb W (ix2 p d) = feat W (row xb p) d := by
  unfold z feat
  exact matmul_plain_apply dot_S512x2048_S2048x768_S512x768_1_0_0_1_n_n rfl none _ _ p d

theorem zP_apply (p : Fin 512) (d : Fin 768) : zP xb W P (ix2 p d) = timesP P (feat W (row xb p)) d := by
  unfold zP timesP
  refine (matmul_plain_apply dot_S512x768_S768x768_S512x768_1_0_0_1_n_n rfl none _ _ p d).trans ?_
  exact Finset.sum_congr rfl fun k _ => congrArg (· * P (ix2 k d)) (z_apply xb W p k)

theorem muP_apply (c : Fin 100) (d : Fin 768) : muP P mu (ix2 c d) = timesP P (row mu c) d := by
  unfold muP timesP
  exact matmul_plain_apply dot_S100x768_S768x768_S100x768_1_0_0_1_n_n rfl none _ _ c d

theorem zPz_apply (p : Fin 512) (u : Fin 1) :
    zPz xb W P (ix2 p u) = ∑ d : Fin 768, timesP P (feat W (row xb p)) d * feat W (row xb p) d := by
  unfold zPz
  refine (shapeCast_a_a1_apply _ shapeCasts_S512_S512x1 p u).trans ?_
  refine (Ideal.multiReduction_add_single (mulf (zP xb W P) (z xb W)) _ reduces_S512x768_S512 _ _ (ix1 p)).trans ?_
  exact Finset.sum_congr rfl fun d _ =>
    (congrArg (mulf (zP xb W P) (z xb W)) (lift_ix1 reduces_S512x768_S512 p d)).trans
      (congrArg₂ (· * ·) (zP_apply xb W P p d) (z_apply xb W p d))

theorem mPm_apply (u : Fin 1) (c : Fin 100) :
    mPm P mu mu' (ix2 u c) = ∑ d : Fin 768, timesP P (row mu c) d * mu' (ix2 c d) := by
  unfold mPm
  refine (transpose_a1_1a_apply _ transposes_S100x1_p1_0_S1x100 u c).trans ?_
  refine (shapeCast_a_a1_apply _ shapeCasts_S100_S100x1 c 0).trans ?_
  refine (Ideal.multiReduction_add_single (mulf (muP P mu) mu') _ reduces_S100x768_S100 _ _ (ix1 c)).trans ?_
  exact Finset.sum_congr rfl fun d _ =>
    (congrArg (mulf (muP P mu) mu') (lift_ix1 reduces_S100x768_S100 c d)).trans
      (congrArg (· * mu' (ix2 c d)) (muP_apply P mu c d))

theorem zPm_apply (p : Fin 512) (c : Fin 100) :
    zPm xb W P mu (ix2 p c) = ∑ d : Fin 768, timesP P (feat W (row xb p)) d * mu (ix2 c d) := by
  unfold zPm
  refine (matmul_transposedRhs_apply dot_S512x768_S100x768_S512x100_1_1_0_0_n_n rfl none _ _ p c).trans ?_
  exact Finset.sum_congr rfl fun d _ => congrArg (· * mu (ix2 c d)) (zP_apply xb W P p d)

theorem mPz_apply (p : Fin 512) (c : Fin 100) :
    mPz xb W P mu (ix2 p c) = ∑ d : Fin 768, feat W (row xb p) d * timesP P (row mu c) d := by
  unfold mPz
  refine (matmul_transposedRhs_apply dot_S512x768_S100x768_S512x100_1_1_0_0_n_n rfl none _ _ p c).trans ?_
  exact Finset.sum_congr rfl fun d _ => congrArg₂ (· * ·) (z_apply xb W p d) (muP_apply P mu c d)

/-- The block's score at `(p, c)` is the specification's score of class `c` for row `p` of the block. -/
theorem scores_apply (p : Fin 512) (c : Fin 100) : scores xb W P mu mu (ix2 p c) = score W mu P (row xb p) c := by
  unfold scores score
  show Ideal.ofBits .f32 0xBF000000#32
      * (broadcastTo S512x100 (zPz xb W P) broadcasts_S512x1_S512x100 (ix2 p c) - zPm xb W P mu (ix2 p c)
          - mPz xb W P mu (ix2 p c)
        + broadcastTo S512x100 (mPm P mu mu) broadcasts_S1x100_S512x100 (ix2 p c)) = _
  rw [broadcastTo_a1_ab_apply _ broadcasts_S512x1_S512x100 p c, broadcastTo_1a_ba_apply _ broadcasts_S1x100_S512x100 p c,
    zPz_apply, zPm_apply, mPz_apply, mPm_apply]

/-- Entry `(p, 0)` of what the body stores is the best class score of row `p` of the block. -/
theorem stored_apply (p : Fin 512) (u : Fin 1) : stored xb W P mu mu (ix2 p u) = best W mu P (row xb p) := by
  unfold stored best
  refine (shapeCast_a_a1_apply _ shapeCasts_S512_S512x1 p u).trans ?_
  refine (Ideal.multiReduction_maximumf_single (scores xb W P mu mu) _ reduces_S512x100_S512 _ _ (ix1 p)).trans ?_
  refine congrArg (fun f : Fin 100 → EReal => (Finset.univ : Finset (Fin 100)).fold max (Ideal.ofBits .f32 0xFF800000#32) f)
    (funext fun c => ?_)
  exact (congrArg (scores xb W P mu mu) (lift_ix1 reduces_S512x100_S512 p c)).trans (scores_apply xb W P mu p c)

/-- The same of the body's stored value itself, with the means loaded twice. -/
theorem pay_apply (p : Fin 512) (u : Fin 1) :
    k0_pay1 (F := Ideal) xb W P mu mu (ix2 p u) = best W mu P (row xb p) :=
  (congrFun (pay_eq xb W P mu mu) (ix2 p u)).trans (stored_apply xb W P mu p u)

end Cert.Mahalanobis.Tile

end
-- ==== Proof.KernelRun.lean ====
/-
  The kernel's run, read: after the sixteen tiles and the final reshape the result array holds the specification.

  Grid point `t` stages rows `512 t … 512 t + 511` of `x` and the whole of `W`, `mu` and `P`, and writes rows
  `512 t … 512 t + 511` of an 8192 × 1 column. By the tile's arithmetic (the tile-body module) entry `(p, 0)` of what
  it writes is the best score of row `p` of its block, which is row `512 t + p` of `x`: so what the point writes back
  is its block of ONE column, `resultCol`, whose entry `(r, 0)` is the best score of row `r`. Row `r` lies in the block of
  point `r / 512`, so the sixteen blocks cover the column and the array ends holding `resultCol`. The host line after the
  region reshapes the column to the vector `result`.
-/
import proofs.«160211_j73744588473029_1_alg».proof.Proof.Gen.KernelIdeal.Frame
import proofs.«160211_j73744588473029_1_alg».proof.Proof.TileBody
import Idealize.ShloMosaic.Lib.Pipeline.Value
import Idealize.ShloMosaic.Lib.StableHlo.Run

set_option maxRecDepth 16384

noncomputable section

namespace Cert.Mahalanobis.KernelRun

open Idealize.ShloMosaic Idealize.ShloMosaic.TcCoe Idealize.ShloMosaic.ValueIdx Idealize.SL.Sem
open Cert.KernelIdeal Cert.KernelIdeal.Gen
open Idealize.ShloMosaic.Pipeline (Dat Cfg)

variable (m : (ℓ : Loc nD τ sig) → Buf (Elt Ideal) ℓ) (ρ : Dev nD → PrngReg)

/-! ## The arrays and the blocks, at their literal types -/

/-- The four argument arrays as the region finds them. -/
abbrev xarr (c : Dev nD) : Mat 8192 2048 := V m c main_arg0
abbrev warr (c : Dev nD) : Mat 2048 768 := V m c main_arg1
abbrev muarr (c : Dev nD) : Mat 100 768 := V m c main_arg2
abbrev parr (c : Dev nD) : Mat 768 768 := V m c main_arg3

/-- The column the region leaves: entry `(r, 0)` the best score of row `r` of `x`. -/
abbrev col (c : Dev nD) : (⟨2, ![8192, 1]⟩ : Shape).Idx → EReal := resultCol (xarr m c) (warr m c) (muarr m c) (parr m c)

/-- What point `t` stages of each input. -/
abbrev xblk (c : Dev nD) (t : Fin cfg0.N) : FVec Ideal S512x2048 .f32 := iblk m c 0 t
abbrev wblk (c : Dev nD) (t : Fin cfg0.N) : FVec Ideal S2048x768 .f32 := iblk m c 1 t
abbrev mublk (c : Dev nD) (t : Fin cfg0.N) : FVec Ideal S100x768 .f32 := iblk m c 2 t
abbrev pblk (c : Dev nD) (t : Fin cfg0.N) : FVec Ideal S768x768 .f32 := iblk m c 3 t

theorem hz : (![0, 0] : Fin 2 → Nat) = fun _ => 0 := funext fun a => by fin_cases a <;> rfl

/-- The printed index maps over the grid: the row window and the output window are at block `t`, the others at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The staged blocks, read -/

/-- Point `t`'s block of `x` at `(p, k)` is `x` at `(512 t + p, k)`. -/
theorem xblk_apply (c : Dev nD) (t : Fin cfg0.N) (y : S512x2048.Idx) (i : S8192x2048.Idx)
    (h0 : (i 0).val = t.val * 512 + (y 0).val) (h1 : (i 1).val = (y 1).val) : xblk m c t y = xarr m c i := by
  show V m c main_arg0 (((cfg0.win 0).blk t).view.emb y) = V m c main_arg0 i
  refine congrArg _ (funext fun a => Fin.ext ?_)
  obtain ⟨e0, e1, -⟩ := idx_facts t
  match a with
  | ⟨0, _⟩ => show win0_0.index t (0 : Fin 2) * 512 + 1 * (y 0).val = (i 0).val; omega
  | ⟨1, _⟩ => show win0_0.index t (1 : Fin 2) * 2048 + 1 * (y 1).val = (i 1).val; omega

/-- The other three windows stage their whole arrays at every point. -/
theorem wblk_eq (c : Dev nD) (t : Fin cfg0.N) : wblk m c t = warr m c := by
  funext y
  show V m c main_arg1 (((cfg0.win 1).blk t).view.emb y) = V m c main_arg1 y
  refine congrArg _ (funext fun a => Fin.ext ?_)
  obtain ⟨-, -, e0, e1, -⟩ := idx_facts t
  match a with
  | ⟨0, _⟩ => show win0_1.index t (0 : Fin 2) * 2048 + 1 * (y 0).val = (y 0).val; omega
  | ⟨1, _⟩ => show win0_1.index t (1 : Fin 2) * 768 + 1 * (y 1).val = (y 1).val; omega

theorem mublk_eq (c : Dev nD) (t : Fin cfg0.N) : mublk m c t = muarr m c := by
  funext y
  show V m c main_arg2 (((cfg0.win 2).blk t).view.emb y) = V m c main_arg2 y
  refine congrArg _ (funext fun a => Fin.ext ?_)
  obtain ⟨-, -, -, -, e0, e1, -⟩ := idx_facts t
  match a with
  | ⟨0, _⟩ => show win0_2.index t (0 : Fin 2) * 100 + 1 * (y 0).val = (y 0).val; omega
  | ⟨1, _⟩ => show win0_2.index t (1 : Fin 2) * 768 + 1 * (y 1).val = (y 1).val; omega

theorem pblk_eq (c : Dev nD) (t : Fin cfg0.N) : pblk m c t = parr m c := by
  funext y
  show V m c main_arg3 (((cfg0.win 3).blk t).view.emb y) = V m c main_arg3 y
  refine congrArg _ (funext fun a => Fin.ext ?_)
  obtain ⟨-, -, -, -, -, -, e0, e1, -⟩ := idx_facts t
  match a with
  | ⟨0, _⟩ => show win0_3.index t (0 : Fin 2) * 768 + 1 * (y 0).val = (y 0).val; omega
  | ⟨1, _⟩ => show win0_3.index t (1 : Fin 2) * 768 + 1 * (y 1).val = (y 1).val; omega

/-! ## What a point writes back -/

/-- The tile's stored value at block index `j` is the column at any index `i` whose row is `512 t + j₀`. -/
theorem tile_apply (c : Dev nD) (t : Fin cfg0.N) (j : S512x1.Idx) (i : S8192x1.Idx)
    (h0 : (i 0).val = t.val * 512 + (j 0).val) :
    k0_pay1 (F := Ideal) (xblk m c t) (wblk m c t) (pblk m c t) (mublk m c t) (mublk m c t) j = col m c i := by
  rw [wblk_eq, pblk_eq, mublk_eq, eq_ix2 j]
  refine (Tile.pay_apply (xblk m c t) (warr m c) (parr m c) (muarr m c) (j 0) (j 1)).trans ?_
  show best (warr m c) (muarr m c) (parr m c) (row (xblk m c t) (j 0)) = best (warr m c) (muarr m c) (parr m c) (row (xarr m c) (i 0))
  refine congrArg (best (warr m c) (muarr m c) (parr m c)) (funext fun k => ?_)
  exact xblk_apply m c t (ix2 (j 0) k) (ix2 (i 0) k) h0 rfl

/-- WHAT POINT `t` WRITES BACK is its block of the column. -/
theorem flushed_eq (c : Dev nD) (t : Fin cfg0.N) :
    (dats m 0 c).flushed 4 t = ((cfg0.win 4).blk t).view.read (Elt Ideal) (col m c) := by
  show (cfg0.win 4).cut (grid0.coords t) ((dats m 0 c).after 4 t) = _
  rw [after0_4]
  unfold out0_4
  rw [View.canon_unit_zero hz]
  simp only [View.ld_unit_zero (S := S512x2048) hz, View.ld_unit_zero (S := S2048x768) hz, View.ld_unit_zero (S := S100x768) hz,
    View.ld_unit_zero (S := S768x768) hz]
  funext j
  refine tile_apply m c t j (((cfg0.win 4).blk t).view.emb j) ?_
  obtain ⟨-, -, -, -, -, -, -, -, e0, e1⟩ := idx_facts t
  show win0_4.index t (0 : Fin 2) * 512 + 1 * (j 0).val = t.val * 512 + (j 0).val
  omega

/-! ## The blocks cover the column -/

/-- An index of the column is in point `t`'s block iff each coordinate is in the block's range on its axis. -/
theorem mem_blk (t : Fin cfg0.N) (i : S8192x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v0).slice (win0_4.rect t)).set ↔ _
  rw [View.set_slice_whole, Rect.mem_set_unit]
  exact Iff.rfl

/-- Row `r` of the column is in the block of point `r / 512`. -/
theorem cover (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  have ht : (i 0).val / 512 < cfg0.N := by
    show (i 0).val / 512 < grid0.N
    rw [N_0]; omega
  refine ⟨⟨(i 0).val / 512, ht⟩, flush0_4 _, ?_⟩
  rw [mem_blk]
  obtain ⟨-, -, -, -, -, -, -, -, e0, e1⟩ := idx_facts ⟨(i 0).val / 512, ht⟩
  have e0' : win0_4.index ⟨(i 0).val / 512, ht⟩ (0 : Fin 2) = (i 0).val / 512 := e0
  intro a
  match a with
  | ⟨0, _⟩ =>
    show win0_4.index ⟨(i 0).val / 512, ht⟩ (0 : Fin 2) * 512 ≤ (i 0).val
      ∧ (i 0).val < win0_4.index ⟨(i 0).val / 512, ht⟩ (0 : Fin 2) * 512 + 512
    omega
  | ⟨1, _⟩ =>
    show win0_4.index ⟨(i 0).val / 512, ht⟩ (1 : Fin 2) * 1 ≤ (i 1).val
      ∧ (i 1).val < win0_4.index ⟨(i 0).val / 512, ht⟩ (1 : Fin 2) * 1 + 1
    omega

/-- THE COLUMN after the region. -/
theorem final (c : Dev nD) : (dats m 0 c).arrAt 4 cfg0.N = col m c :=
  (dats m 0 c).arrAt_eq_of_cover 4 (col m c) (fun t _ => flushed_eq m c t) cover

/-! ## The host line after the region -/

/-- The result vector: the column reshaped. -/
theorem tail_eq (c : Dev nD) :
    Pipeline.afterTail₀ cfgs (dats m) 0 (V0 m) [hostOps1] c main_v1
      = result (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  show StableHlo.after hostOps1 _ (Proc.devRef .tc main_v1) = _
  after_results
  funext i
  rw [eq_ix1 i]
  show shapeCast S8192 (Pipeline.withArrays spec0 c (V0 m c) (fun w => (dats m 0 c).arrAt w cfg0.N) (Proc.devRef .tc main_v0))
      shapeCasts_S8192x1_S8192 (ix1 (i 0)) = _
  refine (Cert.LibTransposedDot.shapeCast_a1_a_apply _ shapeCasts_S8192x1_S8192 (i 0)).trans ?_
  have hw : Pipeline.withArrays spec0 c (V0 m c) (fun w => (dats m 0 c).arrAt w cfg0.N) (Proc.devRef .tc main_v0) = col m c :=
    (Pipeline.withArrays_arr spec0 launch0.win.arr_inj c _ _ 4).trans (final m c)
  exact (congrFun hw (ix2 (i 0) (0 : Fin 1))).trans rfl

/-! ## The run, read -/

/-- Every weakly fair execution of the kernel's program ends with the result array at the specification of the
    argument arrays, and the arguments unchanged. -/
theorem run : θ_run defs (onTc (τ := τ) (main (F := Ideal))) ⟨m, fun _ => 0, ρ⟩ fun r => ∀ c : Dev nD,
      r.2.mem ((c.tc : Thread nD τ).loc main_v1)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.Mahalanobis.KernelRun

end
-- ==== Proof.RefValue.lean ====
/-
  The reference's result is the specification, index by index (the ideal instance).

  The reference forms the same quantities on whole arrays: `z = x · W`, `z · P`, `mu · P`, the row sums `(zP)·z` and
  `(mu P)·mu` (each from an initial zero), the cross products against the transposed means and the transposed `mu · P`,
  the scores, and the maximum over the classes from -∞. A product against a transposed matrix reads the untransposed
  one with its coordinates exchanged, and a vector laid along a new axis reads the vector; so entry `r` of the result is
  `best W mu P` of row `r` of `x`.
-/
import proofs.«160211_j73744588473029_1_alg».proof.Proof.Gen.ReferenceIdeal.Read
import proofs.«160211_j73744588473029_1_alg».proof.Proof.Spec
import proofs.«160211_j73744588473029_1_alg».proof.Proof.LibKeepdims

noncomputable section

namespace Cert.Mahalanobis.Ref

open Idealize.ShloMosaic Idealize.ShloMosaic.ValueIdx Cert.ReferenceIdeal Cert.ReferenceIdeal.Gen Cert.ReferenceIdeal.Read
open Cert.LibKeepdims

variable (x : Mat 8192 2048) (W : Mat 2048 768) (mu : Mat 100 768) (P : Mat 768 768)

/-- Two rank-2 indices with the same coordinates are one index. -/
theorem idx2_ext {a b : ℕ} (i j : (⟨2, ![a, b]⟩ : Shape).Idx) (h0 : (i 0).val = (j 0).val) (h1 : (i 1).val = (j 1).val) : i = j :=
  funext fun ax => Fin.ext (by match ax with | ⟨0, _⟩ => exact h0 | ⟨1, _⟩ => exact h1)

theorem z_apply (r : Fin 8192) (d : Fin 768) : val_main_v0 (F := Ideal) x W (ix2 r d) = feat W (row x r) d := by
  rw [val_main_v0_apply]
  unfold feat
  exact Finset.sum_congr rfl fun k _ =>
    congrArg₂ (· * ·) (congrArg x (idx2_ext (lidx_main_v0 (ix2 r d) k) (ix2 r k) rfl rfl))
      (congrArg W (idx2_ext (ridx_main_v0 (ix2 r d) k) (ix2 k d) rfl rfl))

theorem zP_apply (r : Fin 8192) (d : Fin 768) :
    val_main_v1 (F := Ideal) x W P (ix2 r d) = timesP P (feat W (row x r)) d := by
  rw [val_main_v1_apply]
  unfold timesP
  exact Finset.sum_congr rfl fun k _ =>
    congrArg₂ (· * ·)
      ((congrArg (val_main_v0 (F := Ideal) x W) (idx2_ext (lidx_main_v1 (ix2 r d) k) (ix2 r k) rfl rfl)).trans (z_apply x W r k))
      (congrArg P (idx2_ext (ridx_main_v1 (ix2 r d) k) (ix2 k d) rfl rfl))

theorem muP_apply (c : Fin 100) (d : Fin 768) : val_main_v2 (F := Ideal) mu P (ix2 c d) = timesP P (row mu c) d := by
  rw [val_main_v2_apply]
  unfold timesP
  exact Finset.sum_congr rfl fun k _ =>
    congrArg₂ (· * ·) (congrArg mu (idx2_ext (lidx_main_v2 (ix2 c d) k) (ix2 c k) rfl rfl))
      (congrArg P (idx2_ext (ridx_main_v2 (ix2 c d) k) (ix2 k d) rfl rfl))

/-- The initial value of the two host sums is the extended real zero. -/
theorem cst_zero : val_main_cst (F := Ideal) (Shape.Idx.first h_S_) = 0 := Ideal.ofBits_zero_f32
theorem cst_0_zero : val_main_cst_0 (F := Ideal) (Shape.Idx.first h_S_) = 0 := Ideal.ofBits_zero_f32

/-- `(zP)·z` of row `r`, laid over the classes. -/
theorem zPz_apply (r : Fin 8192) (c : Fin 100) :
    val_main_v12 (F := Ideal) x W P (ix2 r c) = ∑ d : Fin 768, timesP P (feat W (row x r)) d * feat W (row x r) d := by
  refine (val_main_v12_apply (F := Ideal) x W P (ix2 r c)).trans ?_
  refine (val_main_v11_apply (F := Ideal) x W P (idx_main_v12 (ix2 r c))).trans ?_
  refine (val_main_v4_apply x W P (idx_main_v11 (idx_main_v12 (ix2 r c)))).trans ?_
  rw [cst_zero, zero_add]
  exact Finset.sum_congr rfl fun d _ =>
    (congrArg (val_main_v3 (F := Ideal) x W P)
        (idx2_ext (idx_main_v4 (idx_main_v11 (idx_main_v12 (ix2 r c))) d) (ix2 r d) rfl rfl)).trans
      (congrArg₂ (· * ·) (zP_apply x W P r d) (z_apply x W r d))

/-- `(zP) · muᵀ`. -/
theorem zPm_apply (r : Fin 8192) (c : Fin 100) :
    val_main_v6 (F := Ideal) x W mu P (ix2 r c) = ∑ d : Fin 768, timesP P (feat W (row x r)) d * mu (ix2 c d) := by
  refine (val_main_v6_apply x W mu P (ix2 r c)).trans ?_
  exact Finset.sum_congr rfl fun d _ =>
    congrArg₂ (· * ·)
      ((congrArg (val_main_v1 (F := Ideal) x W P) (idx2_ext (lidx_main_v6 (ix2 r c) d) (ix2 r d) rfl rfl)).trans
        (zP_apply x W P r d))
      ((val_main_v5_apply (F := Ideal) mu (ridx_main_v6 (ix2 r c) d)).trans
        (congrArg mu (idx2_ext (idx_main_v5 (ridx_main_v6 (ix2 r c) d)) (ix2 c d) rfl rfl)))

/-- `z · (mu P)ᵀ`. -/
theorem mPz_apply (r : Fin 8192) (c : Fin 100) :
    val_main_v8 (F := Ideal) x W mu P (ix2 r c) = ∑ d : Fin 768, feat W (row x r) d * timesP P (row mu c) d := by
  refine (val_main_v8_apply x W mu P (ix2 r c)).trans ?_
  exact Finset.sum_congr rfl fun d _ =>
    congrArg₂ (· * ·)
      ((congrArg (val_main_v0 (F := Ideal) x W) (idx2_ext (lidx_main_v8 (ix2 r c) d) (ix2 r d) rfl rfl)).trans
        (z_apply x W r d))
      ((val_main_v7_apply (F := Ideal) mu P (ridx_main_v8 (ix2 r c) d)).trans
        ((congrArg (val_main_v2 (F := Ideal) mu P) (idx2_ext (idx_main_v7 (ridx_main_v8 (ix2 r c) d)) (ix2 c d) rfl rfl)).trans
          (muP_apply mu P c d)))

/-- `(mu P)·mu` of class `c`, laid over the rows. -/
theorem mPm_apply (r : Fin 8192) (c : Fin 100) :
    val_main_v16 (F := Ideal) mu P (ix2 r c) = ∑ d : Fin 768, timesP P (row mu c) d * mu (ix2 c d) := by
  refine (val_main_v16_apply (F := Ideal) mu P (ix2 r c)).trans ?_
  refine (val_main_v15_apply (F := Ideal) mu P (idx_main_v16 (ix2 r c))).trans ?_
  refine (val_main_v10_apply mu P (idx_main_v15 (idx_main_v16 (ix2 r c)))).trans ?_
  rw [cst_0_zero, zero_add]
  exact Finset.sum_congr rfl fun d _ =>
    (congrArg (val_main_v9 (F := Ideal) mu P)
        (idx2_ext (idx_main_v10 (idx_main_v15 (idx_main_v16 (ix2 r c))) d) (ix2 c d) rfl rfl)).trans
      (congrArg (· * mu (ix2 c d)) (muP_apply mu P c d))

/-- The reference's score at `(r, c)` is the specification's score of class `c` for row `r`. -/
theorem scores_apply (r : Fin 8192) (c : Fin 100) :
    val_main_v19 (F := Ideal) x W mu P (ix2 r c) = score W mu P (row x r) c := by
  unfold score
  show val_main_v18 (F := Ideal) (ix2 r c)
      * (val_main_v12 (F := Ideal) x W P (ix2 r c) - val_main_v6 (F := Ideal) x W mu P (ix2 r c)
          - val_main_v8 (F := Ideal) x W mu P (ix2 r c)
        + val_main_v16 (F := Ideal) mu P (ix2 r c)) = _
  rw [zPz_apply, zPm_apply, mPz_apply, mPm_apply]
  exact congrArg (· * _) ((val_main_v18_apply (F := Ideal) (ix2 r c)).trans rfl)

/-- The scores' class axis is the one the final maximum runs over. -/
theorem reduces_classes : S8192x100.Reduces [1] S8192 := by decide

/-- Entry `r` of the reference's result is the best class score of row `r`. -/
theorem result_apply (r : Fin 8192) :
    val_main_v20 (F := Ideal) x W mu P (ix1 r) = best W mu P (row x r) := by
  unfold val_main_v20 best
  refine (Host.reduce_eq_fold_single (FloatOps.maximumf (F := Ideal) (φ := .f32)) (val_main_v19 (F := Ideal) x W mu P) (val_main_cst_2 (F := Ideal))
    reducesTo_S8192x100_S8192_d1 reduces_classes h_S_ (ix1 r)).trans ?_
  refine congrArg (fun f : Fin 100 → EReal => (Finset.univ : Finset (Fin 100)).fold max (Ideal.ofBits .f32 0xFF800000#32) f)
    (funext fun c => ?_)
  exact (congrArg (val_main_v19 (F := Ideal) x W mu P) (lift_ix1 reduces_classes r c)).trans (scores_apply x W mu P r c)

/-- The reference's result array is the specification's. -/
theorem result_eq : val_main_v20 (F := Ideal) x W mu P = result x W mu P :=
  funext fun i => by
    rw [eq_ix1 i]
    exact result_apply x W mu P (i 0)

end Cert.Mahalanobis.Ref

end
-- ==== Proof.lean ====
/-
  The Mahalanobis class-score kernel against its jnp reference, over the extended reals.

  Both programs compute, for each of the 8192 rows `r` of `x`, the largest over 100 classes `c` of
    -1/2 · ( (zP)·z - (zP)·mu_c - z·(mu_c P) + (mu_c P)·mu_c ),   z = x_r · W,
  the four inner products formed apart and combined in this order, the maximum taken from -∞. The reference does it on
  whole arrays; the kernel does it for sixteen tiles of 512 rows, each tile with the whole of `W`, `mu` and `P`, narrowing
  the operands of each product to bf16 (the identity on extended reals), and reshapes the 8192 × 1 column it leaves to
  a vector. The result at row `r` reads row `r` of `x` only, so the tiling changes nothing; and the two sides apply the same
  operations in the same order to the same numbers, so no law of the extended reals beyond "a product into a zero
  accumulator, and a sum from an initial zero, is the plain sum" is used, and the finiteness of the inputs is never opened.

  Spec: the one function of the four arrays. TileBody: a tile's stored value at an index. KernelRun: the tiles cover the
  column; the reshape; the kernel's run. RefValue: the reference's result is the same function. The three frames are the
  generated ones (the reference's: its generated run with the result dropped); no operation was rewritten by the
  idealization, so there is nothing to preserve.
-/
import proofs.«160211_j73744588473029_1_alg».proof.Defs
import proofs.«160211_j73744588473029_1_alg».proof.Proof.Gen.Kernel
import proofs.«160211_j73744588473029_1_alg».proof.Proof.Gen.Kernel.Skeleton
import proofs.«160211_j73744588473029_1_alg».proof.Proof.Gen.Kernel.Launch
import proofs.«160211_j73744588473029_1_alg».proof.Proof.Gen.Kernel.Points
import proofs.«160211_j73744588473029_1_alg».proof.Proof.Gen.Kernel.Frame
import proofs.«160211_j73744588473029_1_alg».proof.Proof.Gen.KernelIdeal
import proofs.«160211_j73744588473029_1_alg».proof.Proof.Gen.KernelIdeal.Skeleton
import proofs.«160211_j73744588473029_1_alg».proof.Proof.Gen.KernelIdeal.Launch
import proofs.«160211_j73744588473029_1_alg».proof.Proof.Gen.KernelIdeal.Points
import proofs.«160211_j73744588473029_1_alg».proof.Proof.Gen.KernelIdeal.Frame
import proofs.«160211_j73744588473029_1_alg».proof.Proof.Gen.ReferenceIdeal
import proofs.«160211_j73744588473029_1_alg».proof.Proof.Gen.ReferenceIdeal.Run
import proofs.«160211_j73744588473029_1_alg».proof.Proof.Gen.ReferenceIdeal.Read
import proofs.«160211_j73744588473029_1_alg».proof.Proof.Gen.Pre_finite_inputs
import proofs.«160211_j73744588473029_1_alg».proof.Proof.KernelRun
import proofs.«160211_j73744588473029_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the result array at `result` of those
    arguments: the kernel by its run read through the tiles, the reference by its generated run read stage by stage. -/
theorem algebraic : Cert.algebraic_KernelIdeal_ReferenceIdeal := by
  intro m ρ m' ρ' _ hagree
  refine ⟨fun c => Cert.Mahalanobis.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Mahalanobis.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2.1, (hagree c).2.2.1, (hagree c).2.2.2]
  exact Cert.Mahalanobis.Ref.result_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
